-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1000000 : Shape := ⟨2, ![2, 1000000]⟩
abbrev S1x128 : Shape := ⟨2, ![1, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1x128 : S_.BroadcastsInDim S1x128 (![] : Fin 0 → Fin S1x128.rank)
  reducesTo_S1x128_S_d0_1 : S1x128.ReducesTo [0, 1] S_

variable [Facts]

def fn {F : FTy → Type} [FloatOps F] (main_arg0 : FVec F S100000x128 .f32) (main_arg1 : IVec S2x1000000 32) (main_arg2 : FVec F S1x128 .f32) (main_arg3 : FVec F S1x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1x128 .f32 := Host.absf main_arg2
  let main_cst_0 : FVec F S_ .f32 := constant S_ .f32 0x7F800000#32
  let main_v5 : FVec F S1x128 .f32 := broadcastInDim S1x128 ![] bcast_S_S1x128 main_cst_0
  let main_v6 : IVec S1x128 1 := cmpf .olt main_v4 main_v5
  let main_c_1 : IVec S_ 1 := constantI S_ 1 1#1
  let main_v7 : IVec S_ 1 := (fun x v => Host.reduce IntOp.andi x v reducesTo_S1x128_S_d0_1 h_S_) main_v6 main_c_1
  let main_v8 : IVec S_ 1 := andi main_v3 main_v7
  let main_v9 : FVec F S1x128 .f32 := Host.absf main_arg3
  let main_cst_2 : FVec F S_ .f32 := constant S_ .f32 0x7F800000#32
  let main_v10 : FVec F S1x128 .f32 := broadcastInDim S1x128 ![] bcast_S_S1x128 main_cst_2
  let main_v11 : IVec S1x128 1 := cmpf .olt main_v9 main_v10
  let main_c_3 : IVec S_ 1 := constantI S_ 1 1#1
  let main_v12 : IVec S_ 1 := (fun x v => Host.reduce IntOp.andi x v reducesTo_S1x128_S_d0_1 h_S_) main_v11 main_c_3
  let main_v13 : IVec S_ 1 := andi main_v8 main_v12
  main_v13
-- ==== Kernel.lean ====
abbrev S100000x128 : Shape := ⟨2, ![100000, 128]⟩
abbrev S2x1000000 : Shape := ⟨2, ![2, 1000000]⟩
abbrev S1x128 : Shape := ⟨2, ![1, 128]⟩
abbrev S2x128 : Shape := ⟨2, ![2, 128]⟩
abbrev S2x100000 : Shape := ⟨2, ![2, 100000]⟩
abbrev S4096x128 : Shape := ⟨2, ![4096, 128]⟩
abbrev S2x4096 : Shape := ⟨2, ![2, 4096]⟩
abbrev S1x100000 : Shape := ⟨2, ![1, 100000]⟩
abbrev S100000 : Shape := ⟨1, ![100000]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩

abbrev nBuf : Space → Nat
  | .hbm => 42
  | .vmem => 5
  | .smem => 0
  | _ => 0

abbrev bufTy : (tb : Table) → Fin (tcTables nBuf tb) → BufTy
  | .hbm, ⟨0, _⟩ => ⟨S100000x128, .f32⟩
  | .hbm, ⟨1, _⟩ => ⟨S2x1000000, .i32⟩
  | .hbm, ⟨2, _⟩ => ⟨S1x128, .f32⟩
  | .hbm, ⟨3, _⟩ => ⟨S1x128, .f32⟩
  | .hbm, ⟨4, _⟩ => ⟨S2x128, .f32⟩
  | .hbm, ⟨5, _⟩ => ⟨S2x100000, .f32⟩
  | .hbm, ⟨6, _⟩ => ⟨S1x100000, .f32⟩
  | .hbm, ⟨7, _⟩ => ⟨S100000, .f32⟩
  | .hbm, ⟨8, _⟩ => ⟨S1x100000, .f32⟩
  | .hbm, ⟨9, _⟩ => ⟨S100000, .f32⟩
  | .hbm, ⟨10, _⟩ => ⟨S1x1000000, .i32⟩
  | .hbm, ⟨11, _⟩ => ⟨S1000000, .i32⟩
  | .hbm, ⟨12, _⟩ => ⟨S1x1000000, .i32⟩
  | .hbm, ⟨13, _⟩ => ⟨S1000000, .i32⟩
  | .hbm, ⟨14, _⟩ => ⟨S_, .i32⟩
  | .hbm, ⟨15, _⟩ => ⟨S1000000, .i32⟩
  | .hbm, ⟨16, _⟩ => ⟨S1000000, .i1⟩
  | .hbm, ⟨17, _⟩ => ⟨S_, .i32⟩
  | .hbm, ⟨18, _⟩ => ⟨S1000000, .i32⟩
  | .hbm, ⟨19, _⟩ => ⟨S1000000, .i32⟩
  | .hbm, ⟨20, _⟩ => ⟨S1000000, .i32⟩
  | .hbm, ⟨21, _⟩ => ⟨S1000000x1, .i32⟩
  | .hbm, ⟨22, _⟩ => ⟨S1000000, .f32⟩
  | .hbm, ⟨23, _⟩ => ⟨S_, .i32⟩
  | .hbm, ⟨24, _⟩ => ⟨S1000000, .i32⟩
  | .hbm, ⟨25, _⟩ => ⟨S1000000, .i1⟩
  | .hbm, ⟨26, _⟩ => ⟨S_, .i32⟩
  | .hbm, ⟨27, _⟩ => ⟨S1000000, .i32⟩
  | .hbm, ⟨28, _⟩ => ⟨S1000000, .i32⟩
  | .hbm, ⟨29, _⟩ => ⟨S1000000, .i32⟩
  | .hbm, ⟨30, _⟩ => ⟨S1000000x1, .i32⟩
  | .hbm, ⟨31, _⟩ => ⟨S1000000, .f32⟩
  | .hbm, ⟨32, _⟩ => ⟨S1000000, .f32⟩
  | .hbm, ⟨33, _⟩ => ⟨S1000000, .f32⟩
  | .hbm, ⟨34, _⟩ => ⟨S1000000, .f32⟩
  | .hbm, ⟨35, _⟩ => ⟨S_, .f32⟩
  | .hbm, ⟨36, _⟩ => ⟨S1000000, .f32⟩
  | .hbm, ⟨37, _⟩ => ⟨S1000000, .f32⟩
  | .hbm, ⟨38, _⟩ => ⟨S_, .f32⟩
  | .hbm, ⟨39, _⟩ => ⟨S1000000, .f32⟩
  | .hbm, ⟨40, _⟩ => ⟨S1000000, .f32⟩
  | .hbm, ⟨41, _⟩ => ⟨S1000000x1, .f32⟩
  | .local _ .vmem, ⟨0, _⟩ => ⟨S4096x128, .f32⟩
  | .local _ .vmem, ⟨1, _⟩ => ⟨S4096x128, .f32⟩
  | .local _ .vmem, ⟨2, _⟩ => ⟨S2x128, .f32⟩
  | .local _ .vmem, ⟨3, _⟩ => ⟨S2x4096, .f32⟩
  | .local _ .vmem, ⟨4, _⟩ => ⟨S2x4096, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c : Ref sig .tc := ⟨.hbm, 14, rfl⟩
abbrev main_v10 : Ref sig .tc := ⟨.hbm, 15, rfl⟩
abbrev main_v11 : Ref sig .tc := ⟨.hbm, 16, rfl⟩
abbrev main_c_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c_1 : Ref sig .tc := ⟨.hbm, 23, rfl⟩
abbrev main_v17 : Ref sig .tc := ⟨.hbm, 24, rfl⟩
abbrev main_v18 : Ref sig .tc := ⟨.hbm, 25, rfl⟩
abbrev main_c_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  concatenates_S1x128_S1x128_S2x128_d0 : Shape.Concatenates [S1x128, S1x128] S2x128 0
  inb_S4096x128_S4096x128_0_0 : ∀ a, (![0, 0] : Fin 2 → Nat) a + S4096x128.size a ≤ S4096x128.size a
  h_S4096x128 : 0 < S4096x128.numel
  bitsLt_bf16_f32 : FTy.bits .bf16 < FTy.bits .f32
  inb_S2x128_S2x128_0_0 : ∀ a, (![0, 0] : Fin 2 → Nat) a + S2x128.size a ≤ S2x128.size a
  h_S2x128 : 0 < S2x128.numel
  shapeCasts_S2x128_S2x128 : S2x128.ShapeCasts S2x128
  inb_S2x4096_S2x4096_0_0 : ∀ a, (![0, 0] : Fin 2 → Nat) a + S2x4096.size a ≤ S2x4096.size a
  h_S2x4096 : 0 < S2x4096.numel
  slices_S2x100000_S1x100000_0_0 : S2x100000.Slices ![0, 0] S1x100000
  shapeCasts_S1x100000_S100000 : S1x100000.ShapeCasts S100000
  slices_S2x100000_S1x100000_1_0 : S2x100000.Slices ![1, 0] S1x100000
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  dot_S2x128_S4096x128_S2x4096_1_1_0_0_n_n_wf : DotDims.WF S2x128 S4096x128 S2x4096 [1] [1] [0] [0] [] []
  gather_S100000_S1000000x1_S1000000_n_0_n_n_0_1_1_wf : GatherDims.WF S100000 S1000000x1 S1000000 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S4096x128.size a < S100000x128.size a
  hwx0_0 : ∀ i : grid0.Coords, EltTy.bits .f32 = 32 ∨ (Rect.unit (s := S100000x128) (fun a => cc0_transform_0 i a * S4096x128.size a) (fun a => (Pipeline.Clip.of (cc0_transform_0 i a) (S4096x128.size a) (S100000x128.size a)).extent (S4096x128.size a)) fun a => Pipeline.Clip.inb (Pipeline.Clip.ok_of (hstart0_0 i a))).WholeWords (EltTy.packing .f32)
  hwxs0_0 : ∀ i : grid0.Coords, EltTy.bits .f32 = 32 ∨ (Rect.unit (s := S4096x128) (fun _ => 0) (fun a => (Pipeline.Clip.of (cc0_transform_0 i a) (S4096x128.size a) (S100000x128.size a)).extent (S4096x128.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x128.size a ≤ S2x128.size a
  hwx0_1 : ∀ i : grid0.Coords, EltTy.bits .f32 = 32 ∨ (Rect.block (s := S2x128) S2x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S2x4096.size a < S2x100000.size a
  hwx0_2 : ∀ i : grid0.Coords, EltTy.bits .f32 = 32 ∨ (Rect.unit (s := S2x100000) (fun a => cc0_transform_2 i a * S2x4096.size a) (fun a => (Pipeline.Clip.of (cc0_transform_2 i a) (S2x4096.size a) (S2x100000.size a)).extent (S2x4096.size a)) fun a => Pipeline.Clip.inb (Pipeline.Clip.ok_of (hstart0_2 i a))).WholeWords (EltTy.packing .f32)
  hwxs0_2 : ∀ i : grid0.Coords, EltTy.bits .f32 = 32 ∨ (Rect.unit (s := S2x4096) (fun _ => 0) (fun a => (Pipeline.Clip.of (cc0_transform_2 i a) (S2x4096.size a) (S2x100000.size a)).extent (S2x4096.size a)) fun a => (Nat.zero_add _).trans_le (Pipeline.Clip.extent_le (Pipeline.Clip.ok_of (hstart0_2 i a)))).WholeWords (EltTy.packing .f32)

variable [Facts₀]

def dot_S2x128_S4096x128_S2x4096_1_1_0_0_n_n : DotDims S2x128 S4096x128 S2x4096 where
  lhsContracting := [1]
  rhsContracting := [1]
  lhsNonContracting := [0]
  rhsNonContracting := [0]
  lhsBatch := []
  rhsBatch := []
  wf := dot_S2x128_S4096x128_S2x4096_1_1_0_0_n_n_wf
def gather_S100000_S1000000x1_S1000000_n_0_n_n_0_1_1 : GatherDims S100000 S1000000x1 S1000000 where
  offsetDims := []
  collapsedSliceDims := [0]
  operandBatchingDims := []
  startIndicesBatchingDims := []
  startIndexMap := [0]
  indexVectorDim := 1
  sliceSizes := ![1]
  wf := gather_S100000_S1000000x1_S1000000_n_0_n_n_0_1_1_wf

abbrev win0_0 : Pipeline.Window sig grid0 :=
  Pipeline.Window.ofSpecClip (Memref.whole main_arg0) S4096x128.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v0) S2x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpecClip (Memref.whole main_v1) S2x4096.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x1000000 : Shape := ⟨2, ![2, 1000000]⟩
abbrev S1x128 : Shape := ⟨2, ![1, 128]⟩
abbrev S128x1 : Shape := ⟨2, ![128, 1]⟩
abbrev S100000x1 : Shape := ⟨2, ![100000, 1]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩

abbrev nBuf : Space → Nat
  | .hbm => 39
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1000000, .i32⟩
  | .hbm, ⟨2, _⟩ => ⟨S1x128, .f32⟩
  | .hbm, ⟨3, _⟩ => ⟨S1x128, .f32⟩
  | .hbm, ⟨4, _⟩ => ⟨S128x1, .f32⟩
  | .hbm, ⟨5, _⟩ => ⟨S100000x1, .f32⟩
  | .hbm, ⟨6, _⟩ => ⟨S128x1, .f32⟩
  | .hbm, ⟨7, _⟩ => ⟨S100000x1, .f32⟩
  | .hbm, ⟨8, _⟩ => ⟨S1x1000000, .i32⟩
  | .hbm, ⟨9, _⟩ => ⟨S1000000, .i32⟩
  | .hbm, ⟨10, _⟩ => ⟨S_, .i32⟩
  | .hbm, ⟨11, _⟩ => ⟨S1000000, .i32⟩
  | .hbm, ⟨12, _⟩ => ⟨S1000000, .i1⟩
  | .hbm, ⟨13, _⟩ => ⟨S_, .i32⟩
  | .hbm, ⟨14, _⟩ => ⟨S1000000, .i32⟩
  | .hbm, ⟨15, _⟩ => ⟨S1000000, .i32⟩
  | .hbm, ⟨16, _⟩ => ⟨S1000000, .i32⟩
  | .hbm, ⟨17, _⟩ => ⟨S1000000x1, .i32⟩
  | .hbm, ⟨18, _⟩ => ⟨S1000000x1, .f32⟩
  | .hbm, ⟨19, _⟩ => ⟨S1x1000000, .i32⟩
  | .hbm, ⟨20, _⟩ => ⟨S1000000, .i32⟩
  | .hbm, ⟨21, _⟩ => ⟨S_, .i32⟩
  | .hbm, ⟨22, _⟩ => ⟨S1000000, .i32⟩
  | .hbm, ⟨23, _⟩ => ⟨S1000000, .i1⟩
  | .hbm, ⟨24, _⟩ => ⟨S_, .i32⟩
  | .hbm, ⟨25, _⟩ => ⟨S1000000, .i32⟩
  | .hbm, ⟨26, _⟩ => ⟨S1000000, .i32⟩
  | .hbm, ⟨27, _⟩ => ⟨S1000000, .i32⟩
  | .hbm, ⟨28, _⟩ => ⟨S1000000x1, .i32⟩
  | .hbm, ⟨29, _⟩ => ⟨S1000000x1, .f32⟩
  | .hbm, ⟨30, _⟩ => ⟨S1000000x1, .f32⟩
  | .hbm, ⟨31, _⟩ => ⟨S1000000x1, .f32⟩
  | .hbm, ⟨32, _⟩ => ⟨S1000000x1, .f32⟩
  | .hbm, ⟨33, _⟩ => ⟨S_, .f32⟩
  | .hbm, ⟨34, _⟩ => ⟨S1000000x1, .f32⟩
  | .hbm, ⟨35, _⟩ => ⟨S1000000x1, .f32⟩
  | .hbm, ⟨36, _⟩ => ⟨S_, .f32⟩
  | .hbm, ⟨37, _⟩ => ⟨S1000000x1, .f32⟩
  | .hbm, ⟨38, _⟩ => ⟨S1000000x1, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c_1 : Ref sig .tc := ⟨.hbm, 21, rfl⟩
abbrev main_v15 : Ref sig .tc := ⟨.hbm, 22, rfl⟩
abbrev main_v16 : Ref sig .tc := ⟨.hbm, 23, rfl⟩
abbrev main_c_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]

class Facts₀ : Prop where
  transposes_S1x128_S128x1_1_0 : S1x128.Transposes [1, 0] S128x1
  slices_S2x1000000_S1x1000000_0_0 : S2x1000000.Slices ![0, 0] S1x1000000
  shapeCasts_S1x1000000_S1000000 : S1x1000000.ShapeCasts S1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  slices_S2x1000000_S1x1000000_1_0 : S2x1000000.Slices ![1, 0] S1x1000000
  bcast_S_S1000000x1 : S_.BroadcastsInDim S1000000x1 (![] : Fin 0 → Fin S1000000x1.rank)
  dot_S100000x128_S128x1_S100000x1_1_0_0_1_n_n_wf : DotDims.WF S100000x128 S128x1 S100000x1 [1] [0] [0] [1] [] []
  gather_S100000x1_S1000000x1_S1000000x1_1_0_n_n_0_1_11_wf : GatherDims.WF S100000x1 S1000000x1 S1000000x1 [1] [0] [] [0] [] 1 ![1, 1]

variable [Facts₀]

def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf
def gather_S100000x1_S1000000x1_S1000000x1_1_0_n_n_0_1_11 : GatherDims S100000x1 S1000000x1 S1000000x1 where
  offsetDims := [1]
  collapsedSliceDims := [0]
  operandBatchingDims := []
  startIndicesBatchingDims := []
  startIndexMap := [0]
  indexVectorDim := 1
  sliceSizes := ![1, 1]
  wf := gather_S100000x1_S1000000x1_S1000000x1_1_0_n_n_0_1_11_wf

class Facts : Prop extends Facts₀ where

variable [Facts]
-- ==== Proof.KernelFrame.lean ====
/-
  The frame of the score kernel as printed: it runs, and its four argument arrays end as they were launched.

  At grid point `t` the body loads the staged block of node features (4096 rows of 128), the two weight rows, multiplies
  the weights into the features' transpose and stores the (2 × 4096) block of scores. The last block of features
  overhangs the array, so the staging rows past the array's end hold values nothing names. At the bit-exact values the
  product at an element is a function of the whole right operand, those unnamed rows included, so the scores' staging
  buffer has no closed form there. The frame does not read the scores: the proof data names what the features' and the
  weights' buffers hold and says nothing of the scores' buffer. The features' array is an input of the region, never
  written; the other three arguments bypass the region, and no host line after it writes them.
-/
import proofs.«401236_j21947282882710_3_alg».proof.Defs
import proofs.«401236_j21947282882710_3_alg».proof.Proof.Gen.Kernel
import proofs.«401236_j21947282882710_3_alg».proof.Proof.Gen.Pre_finite_inputs
import proofs.«401236_j21947282882710_3_alg».proof.Proof.Gen.Kernel.Skeleton
import proofs.«401236_j21947282882710_3_alg».proof.Proof.Gen.Kernel.Launch
import proofs.«401236_j21947282882710_3_alg».proof.Proof.Gen.Kernel.Points
import proofs.«401236_j21947282882710_3_alg».proof.Proof.Gen.Kernel.Frame
import Idealize.ShloMosaic.Lib.Pipeline.Kit
import Idealize.ShloMosaic.Lib.Pipeline.FrameSuffix
import Idealize.ShloMosaic.Lib.Tactic

set_option maxRecDepth 16384

noncomputable section

namespace Cert.KernelFrame

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The kernel has no variants. -/
abbrev 𝒱₀ : Variants := Variants.none

/-! ## The body's triple -/

/-- One case of the triple: the features' staging buffer `b0`, the weights' `b1`, the scores' `b2`. Each access is the
    whole buffer (offsets zero, the buffer's own sizes), so a load reads the contents and the store replaces them. -/
local macro "score_body_case" b0:ident b1:ident b2:ident : tactic => `(tactic| (
  have hz : (![0, 0] : Fin 2 → Nat) = fun _ => 0 := funext fun a => by fin_cases a <;> rfl
  have hr0 : (Memref.whole $b0 : Memref sig .tc _ _ _).view.readAt (Elt F) (Rect.unit (s := S4096x128) ![0, 0] S4096x128.size
      inb_S4096x128_S4096x128_0_0).toLoadRect = id := funext (Memref.readAt_unit_zero (Elt F) $b0 hz _)
  have hr1 : (Memref.whole $b1 : Memref sig .tc _ _ _).view.readAt (Elt F) (Rect.unit (s := S2x128) ![0, 0] S2x128.size
      inb_S2x128_S2x128_0_0).toLoadRect = id := funext (Memref.readAt_unit_zero (Elt F) $b1 hz _)
  have hw2 : ∀ f w, (((Memref.whole $b2).access (Rect.unit (s := S2x4096) ![0, 0] S2x4096.size inb_S2x4096_S2x4096_0_0)) :
      View sig .tc _ _ _).write (Elt F) f w Finset.univ = w := Memref.write_access_unit_zero_univ (Elt F) $b2 hz _
  simp only [owns_whole_eq, cc0__score_kernel_eq_skeleton]; unfold cc0__score_kernel_skel
  simp only [Prog.lift, Prog.bind_op, Prog.bind_ret]
  iintro ⟨⟨⟨%f0, %hf0, H0⟩, ⟨%f1, %hf1, H1⟩, ⟨%f2, %hf2, H2⟩⟩, Hk⟩
  sl_steps
  iapply Hk
  rw [hr0, hr1, hw2]
  isplitl [H0]
  · iexists f0; isplitr; · ipureintro; exact hf0
    iexact H0
  isplitl [H1]
  · iexists f1; isplitr; · ipureintro; exact hf1
    iexact H1
  · iexists k0_pay1 f0 f1; isplitr; · ipureintro; rw [hf0, hf1]
    iexact H2))

/-- The body on staging buffers `s0` of the features' window, `s1` of the weights' (its one) and `s2` of the scores':
    the scores' buffer ends holding the product of what the other two hold, those unchanged. -/
theorem sound_body (c : Dev nD) (E : Set ℕ) (i : grid0.Coords) (s0 : Fin 2) (s1 : Fin 1) (s2 : Fin 2)
    (X0 : S4096x128.Idx → Elt F .f32) (X1 : S2x128.Idx → Elt F .f32) (X2 : S2x4096.Idx → Elt F .f32) (K : PUnit → sProp 𝕄) :
    iprop((owns (c : Thread nD τ) (stage0_0 s0) fullShare X0 ∗ owns (c : Thread nD τ) (stage0_1 s1) fullShare X1
            ∗ owns (c : Thread nD τ) (stage0_2 s2) fullShare X2)
          ∗ (iprop(owns (c : Thread nD τ) (stage0_0 s0) fullShare X0 ∗ owns (c : Thread nD τ) (stage0_1 s1) fullShare X1
                  ∗ owns (c : Thread nD τ) (stage0_2 s2) fullShare (k0_pay1 X0 X1)) -∗ K ⟨⟩))
      ⊢ wp frame (wpE (defs₀ (F := F)) 𝒱₀ c none) E
          (cc0__score_kernel i (stage0_0 s0) (hstage0_0 s0) (stage0_1 s1) (hstage0_1 s1) (stage0_2 s2) (hstage0_2 s2)) K := by
  fin_cases s0 <;> fin_cases s1 <;> fin_cases s2
  · score_body_case cc0_stg0_0 cc0_stg1_0 cc0_stg2_0
  · score_body_case cc0_stg0_0 cc0_stg1_0 cc0_stg2_1
  · score_body_case cc0_stg0_1 cc0_stg1_0 cc0_stg2_0
  · score_body_case cc0_stg0_1 cc0_stg1_0 cc0_stg2_1

/-! ## The proof data -/

variable (m : (ℓ : Loc nD τ sig) → Buf (Elt F) ℓ) (ρ : Dev nD → PrngReg)

/-- The windows the proof data does not name: the scores' (window 2) alone. -/
abbrev fgt : Fin 3 → Bool := fun | 0 => false | 1 => false | 2 => true | ⟨_ + 3, h⟩ => absurd h (Nat.not_lt.2 (Nat.le_add_left _ _))

/-- The block of node features point `t` fetches, filled out to the staging buffer's 4096 rows by `d`: what the buffer
    holds once the fetch has landed (the rows inside the array are the array's; past its end, `d`). -/
abbrev xfill (c : Dev nD) (t : Fin cfg0.N) (d : S4096x128.Idx → Elt F .f32) : S4096x128.Idx → Elt F .f32 :=
  win0_0.fill (grid0.coords t) d (iblk m c 0 t)

/-- The two weight rows as the region finds them. -/
abbrev wblk (c : Dev nD) (t : Fin cfg0.N) : S2x128.Idx → Elt F .f32 := iblk m c 1 t

/-- The proof data on core `c`: the arrays as the region finds them; after the body the features' buffer holds its block
    (the zero word on the rows past the array's end, which nothing reads back) and the weights' buffer the weights. The
    scores' buffer is not named: its entry here is a placeholder no statement reads. -/
def dats (c : Dev nD) : Dat τ (Elt F) Unit ℕ (UR sig nD τ) ℕ cfg0 c where
  A w := V m c (Pipeline.arrRef spec0 w)
  after w t := match w with
    | ⟨0, _⟩ => xfill m c t (fun _ => Scalar.ofBits .f32 0#32)
    | ⟨1, _⟩ => wblk m c t
    | ⟨2, _⟩ => fun _ => Scalar.ofBits .f32 0#32
  Φ _ := Pipeline.ΦA spec0 c
  q _ := fullShare
  owed _ := 0

/-- The features' buffer was just fetched at every point: the block, `d` past the array's end. -/
theorem before_0 (c : Dev nD) (t : Fin cfg0.N) (d) :
    (dats m c).before (0 : Fin 3) t d = xfill m c t d := by
  unfold Dat.before; rw [if_pos (fetch0_0 t)]; rfl

/-- The weights' buffer holds the weights at every point, fetched there or not. -/
theorem before_1 (c : Dev nD) (t : Fin cfg0.N) (d) :
    (dats m c).before (1 : Fin 3) t d = wblk m c t :=
  before0_1_of m (dats m c) rfl (fun _ => rfl) t d

/-! ## The body's obligation -/

/-- At every point the features' buffer arrives just fetched and the weights' buffer holding the weights; the scores'
    buffer arrives at any contents. The body leaves the first two as it found them, which on the rows inside the array is
    what the proof data names, and the scores' buffer at contents the obligation does not state. -/
theorem body_obligation (c : Dev nD) :
    BodyObligationLoose (dats m c) (defs₀ (F := F)) 𝒱₀ () Set.univ fgt := fun t => by
  rw [bigSep_W0, bigSep_W0]
  -- no point is idle, the features' window is loose, the weights' is not, the scores' is not named: the matches reduce
  simp only
  rw [show (dats m c).Φ t.succ = (dats m c).Φ t.castSucc from rfl,
    show (dats m c).owesAt () t.succ = (dats m c).owesAt () t.castSucc from rfl]
  iintro ⟨HΦ, Ho, ⟨%d0, H0⟩, ⟨%d1, H1⟩, ⟨%X2, H2⟩⟩
  rw [before_0 m c t d0, before_1 m c t d1]
  iapply (sound_body (F := F) c Set.univ (grid0.coords t) (cfg0.slots t 0) (cfg0.slots t 1) (cfg0.slots t 2)
    (xfill m c t d0) (wblk m c t) X2 _)
  isplitl [H0 H1 H2]
  · isplitl [H0]
    · iexact H0
    isplitl [H1]
    · iexact H1
    · iexact H2
  iintro ⟨H0, H1, H2⟩
  isplitl [HΦ]; · iexact HΦ
  isplitl [Ho]; · iexact Ho
  -- on the rows inside the array the named contents of the features' buffer are the fetched block, whatever fills the rest
  have hx : win0_0.cut (grid0.coords t) ((dats m c).after 0 t) = iblk m c 0 t := by
    dsimp only [dats]; exact win0_0.cut_fill _ _ _
  have hw : (dats m c).after 1 t = wblk m c t := by dsimp only [dats]
  isplitl [H0]
  · iexists d0
    change _ ⊢ owns (c : Thread nD τ) (stage0_0 (cfg0.slots t 0)) fullShare
      (win0_0.fill (grid0.coords t) d0 (win0_0.cut (grid0.coords t) ((dats m c).after 0 t)))
    rw [hx]
  isplitl [H1]
  · rw [hw]; iexact H1
  · iexists _; iexact H2

/-! ## The run -/

/-- The buffers the host lines after the region write: each line's own result. -/
def T : Finset (Ref sig .tc) :=
  {main_v2, main_v3, main_v4, main_v5, main_v6, main_v7, main_v8, main_v9, main_c, main_v10, main_v11, main_c_0, main_v12,
   main_v13, main_v14, main_v15, main_v16, main_c_1, main_v17, main_v18, main_c_2, main_v19, main_v20, main_v21, main_v22,
   main_v23, main_v24, main_v25, main_v26, main_cst, main_v27, main_v28, main_cst_3, main_v29, main_v30, main_v31}

set_option maxHeartbeats 400000 in
/-- Every line after the region writes a buffer of `T`. -/
theorem writes_T : ∀ ops ∈ ([hostOps1] : List (List (HloOp τ sig (Elt F)))), ∀ op ∈ ops,
    ∀ b : Ref sig .tc, Proc.devRef .tc b ∈ op.writes → b ∈ T := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  all_goals
    intro b hb
    simp only [StableHlo.nullary_writes, StableHlo.unary_writes, StableHlo.binary_writes, StableHlo.ternary_writes,
      StableHlo.quaternary_writes, StableHlo.reshape_writes, StableHlo.binaryIndexed_writes, Finset.mem_singleton] at hb
    obtain rfl := Proc.devRef_injective (τ := τ) _ hb
    decide

/-- At the compiled mesh, for any float values, from any memory whose semaphore counters are zero: every weakly fair
    execution of @main terminates, the features' array ends holding some contents it may hold after the run (it is an
    input: its entry contents), and every buffer that bypasses the region and that no later line writes ends as the
    region found it. -/
theorem run_main :
    θ_run defs (onTc (τ := τ) (main (F := F))) (s₀ m ρ)
      (Pipeline.RDat.FramePostR cfg0 (fun c => (dats m c).toRForget fgt) T (fun c b => V0 m c (Proc.devRef .tc b))) :=
  Pipeline.RDat.θ_run_frame_around_T cfgs 0 launch0 defs₀ 𝒱₀ (fun c => (dats m c).toRForget fgt) T m ρ main
    (hbody := fun c => (body_obligation m c).toRForget)
    (hshare := fun c w => (dats m c).share_full (fun _ => rfl) w)
    (howed := fun _ _ => rfl)
    (V₀ := V0 m) (opss := [hostOps1]) sfx_sub sfx_fresh sfx_keeps writes_T (hmain m 𝒱₀)
    (hA := fun _ _ => rfl) (hΦ := fun _ _ => rfl)

/-! ## The frame -/

/-- The frame at any float values: the features' array by the run's first clause (an input of the region holds its
    entry contents, and no line before the region writes it); the edge list and the two weight rows bypass the region,
    are written by no line after it, and by none before it. -/
theorem frame_any :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(Pipeline.RDat.FramePostR.arr_in h c (0 : Fin 3) rfl).trans (V_main_arg0 m c),
     ((h c).2 main_arg1 (Finset.mem_sdiff.mpr ⟨Pipeline.mem_restRefs_of main_arg1 (by decide) (by decide), by decide⟩)).trans
        (V_main_arg1 m c),
     ((h c).2 main_arg2 (Finset.mem_sdiff.mpr ⟨Pipeline.mem_restRefs_of main_arg2 (by decide) (by decide), by decide⟩)).trans
        (V_main_arg2 m c),
     ((h c).2 main_arg3 (Finset.mem_sdiff.mpr ⟨Pipeline.mem_restRefs_of main_arg3 (by decide) (by decide), by decide⟩)).trans
        (V_main_arg3 m c)⟩) (run_main m ρ)

/-- The kernel as printed runs and leaves its arguments as launched. -/
theorem frame : Cert.frame_Kernel := fun m ρ _ => frame_any (F := Bits) m ρ

end Cert.KernelFrame

end
-- ==== Proof.LibOneAxisContraction.lean ====
/-
  A contraction over ONE axis, read at one entry of the result, is a plain sum over the contracted coordinate.

  A GENERAL lemma file (any shapes, any dimension numbers with a single contracting axis): a kernel's matmul into a
  zero accumulator and a reference's dot_general, at the ideal values, hold at each entry the sum, over the one
  contracted coordinate, of the products of the operands' entries, once one knows which entry of each operand sits at a
  given result index and contraction position — the two hypotheses `hL`, `hR` of the lemmas below, which a certificate
  proves per dimension-number record (axis by axis: off the contracted axis an operand index reads the result index, on
  it the contracted coordinate, by `contrEquiv1_symm_val`).
-/
import Idealize.ShloMosaic.Lib.ValueIdx
import Idealize.ShloMosaic.PureOps.Ideal.Laws

noncomputable section

namespace Cert.Dots

open Idealize.ShloMosaic Idealize.ShloMosaic.ValueIdx
open scoped BigOperators

/-- A contraction over ONE axis of extent `K`, read at a result index: once the two operand indices at contraction
    position `c` are known (`hL`, `hR`), the product is the sum over `c` of the operands' entries there. -/
theorem dotGeneral_apply_of {sl sr so : Shape} {φ₁ φ₂ : FTy} (d : DotDims sl sr so) (K : Nat) (hr : d.contr.rank = 1)
    (hs : d.contr.size ⟨0, by omega⟩ = K) (prec : Option ContractPrecision) (sched : HostSchedule)
    (lhs : FVec Ideal sl φ₁) (rhs : FVec Ideal sr φ₂) (j : so.Idx) (L : Fin K → sl.Idx) (R : Fin K → sr.Idx)
    (hL : ∀ c, d.lhsIdx j ((contrEquiv1 d K hr hs).symm c) = L c)
    (hR : ∀ c, d.rhsIdx j ((contrEquiv1 d K hr hs).symm c) = R c) :
    FloatOps.dotGeneral d prec sched lhs rhs j = ∑ c : Fin K, lhs (L c) * rhs (R c) := by
  rw [Ideal.dotGeneral_apply, ← Equiv.sum_comp (contrEquiv1 d K hr hs).symm]
  exact Finset.sum_congr rfl fun c _ => by rw [hL c, hR c]

/-- The same for a `tpu.matmul` into the zero accumulator. -/
theorem matmul_zero_apply_of {sl sr so : Shape} {φ₁ φ₂ : FTy} (d : DotDims sl sr so) (K : Nat) (hr : d.contr.rank = 1)
    (hs : d.contr.size ⟨0, by omega⟩ = K) (prec : Option ContractPrecision)
    (lhs : FVec Ideal sl φ₁) (rhs : FVec Ideal sr φ₂) (j : so.Idx) (L : Fin K → sl.Idx) (R : Fin K → sr.Idx)
    (hL : ∀ c, d.lhsIdx j ((contrEquiv1 d K hr hs).symm c) = L c)
    (hR : ∀ c, d.rhsIdx j ((contrEquiv1 d K hr hs).symm c) = R c) :
    matmul d prec lhs rhs (constant so .f32 0x00000000#32) j = ∑ c : Fin K, lhs (L c) * rhs (R c) := by
  show FloatOps.matmul d prec lhs rhs (constant so .f32 0x00000000#32) j = _
  rw [Ideal.matmul_constant_zero_apply, ← Equiv.sum_comp (contrEquiv1 d K hr hs).symm]
  exact Finset.sum_congr rfl fun c _ => by rw [hL c, hR c]

end Cert.Dots

end
-- ==== Proof.ScoreBody.lean ====
/-
  The score kernel's body, point by point, at the ideal values.

  At grid point `t` the body loads the staged block of node features (4096 rows of 128), the two weight rows, multiplies
  the weights into the features' transpose and stores the (2 × 4096) block of scores. The last block of features
  overhangs the array: its staging rows past the array's end hold values nothing names, and the score columns computed
  from them are never written back. A score column depends on its own feature row only (the product is a sum over the
  128 features of that row), so the columns that ARE written back do not depend on the unnamed rows.
-/
import proofs.«401236_j21947282882710_3_alg».proof.Proof.Gen.KernelIdeal.Frame
import proofs.«401236_j21947282882710_3_alg».proof.Proof.Gen.KernelIdeal.Skeleton
import proofs.«401236_j21947282882710_3_alg».proof.Proof.LibOneAxisContraction
import Idealize.ShloMosaic.Lib.Pipeline.Kit
import Idealize.ShloMosaic.Lib.Pipeline.Value
import Idealize.ShloMosaic.Lib.Pipeline.FrameSuffix
import Idealize.ShloMosaic.Lib.Tactic

set_option maxRecDepth 16384

noncomputable section

namespace Cert.ScoreBody

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The kernel has no variants. -/
abbrev 𝒱₀ : Variants := Variants.none

/-! ## The body's triple -/

/-- One case of the triple: the features' staging buffer `b0`, the weights' `b1`, the scores' `b2`. Each access is the
    whole buffer (offsets zero, the buffer's own sizes), so a load reads the contents and the store replaces them. -/
local macro "score_body_case" b0:ident b1:ident b2:ident : tactic => `(tactic| (
  have hz : (![0, 0] : Fin 2 → Nat) = fun _ => 0 := funext fun a => by fin_cases a <;> rfl
  have hr0 : (Memref.whole $b0 : Memref sig .tc _ _ _).view.readAt (Elt F) (Rect.unit (s := S4096x128) ![0, 0] S4096x128.size
      inb_S4096x128_S4096x128_0_0).toLoadRect = id := funext (Memref.readAt_unit_zero (Elt F) $b0 hz _)
  have hr1 : (Memref.whole $b1 : Memref sig .tc _ _ _).view.readAt (Elt F) (Rect.unit (s := S2x128) ![0, 0] S2x128.size
      inb_S2x128_S2x128_0_0).toLoadRect = id := funext (Memref.readAt_unit_zero (Elt F) $b1 hz _)
  have hw2 : ∀ f w, (((Memref.whole $b2).access (Rect.unit (s := S2x4096) ![0, 0] S2x4096.size inb_S2x4096_S2x4096_0_0)) :
      View sig .tc _ _ _).write (Elt F) f w Finset.univ = w := Memref.write_access_unit_zero_univ (Elt F) $b2 hz _
  simp only [owns_whole_eq, cc0__score_kernel_eq_skeleton]; unfold cc0__score_kernel_skel
  simp only [Prog.lift, Prog.bind_op, Prog.bind_ret]
  iintro ⟨⟨⟨%f0, %hf0, H0⟩, ⟨%f1, %hf1, H1⟩, ⟨%f2, %hf2, H2⟩⟩, Hk⟩
  sl_steps
  iapply Hk
  rw [hr0, hr1, hw2]
  isplitl [H0]
  · iexists f0; isplitr; · ipureintro; exact hf0
    iexact H0
  isplitl [H1]
  · iexists f1; isplitr; · ipureintro; exact hf1
    iexact H1
  · iexists k0_pay1 f0 f1; isplitr; · ipureintro; rw [hf0, hf1]
    iexact H2))

/-- The body on staging buffers `s0` of the features' window, `s1` of the weights' (its one) and `s2` of the scores':
    the scores' buffer ends holding the product of what the other two hold, those unchanged. -/
theorem sound_body (c : Dev nD) (E : Set ℕ) (i : grid0.Coords) (s0 : Fin 2) (s1 : Fin 1) (s2 : Fin 2)
    (X0 : S4096x128.Idx → Elt F .f32) (X1 : S2x128.Idx → Elt F .f32) (X2 : S2x4096.Idx → Elt F .f32) (K : PUnit → sProp 𝕄) :
    iprop((owns (c : Thread nD τ) (stage0_0 s0) fullShare X0 ∗ owns (c : Thread nD τ) (stage0_1 s1) fullShare X1
            ∗ owns (c : Thread nD τ) (stage0_2 s2) fullShare X2)
          ∗ (iprop(owns (c : Thread nD τ) (stage0_0 s0) fullShare X0 ∗ owns (c : Thread nD τ) (stage0_1 s1) fullShare X1
                  ∗ owns (c : Thread nD τ) (stage0_2 s2) fullShare (k0_pay1 X0 X1)) -∗ K ⟨⟩))
      ⊢ wp frame (wpE (defs₀ (F := F)) 𝒱₀ c none) E
          (cc0__score_kernel i (stage0_0 s0) (hstage0_0 s0) (stage0_1 s1) (hstage0_1 s1) (stage0_2 s2) (hstage0_2 s2)) K := by
  fin_cases s0 <;> fin_cases s1 <;> fin_cases s2
  · score_body_case cc0_stg0_0 cc0_stg1_0 cc0_stg2_0
  · score_body_case cc0_stg0_0 cc0_stg1_0 cc0_stg2_1
  · score_body_case cc0_stg0_1 cc0_stg1_0 cc0_stg2_0
  · score_body_case cc0_stg0_1 cc0_stg1_0 cc0_stg2_1

/-! ## The product read at an entry -/

open Idealize.ShloMosaic.ValueIdx in
/-- The weights' index at score entry `y` and feature `k`: row `y 0`, column `k`. -/
abbrev widx (y : S2x4096.Idx) (k : Fin 128) : S2x128.Idx := ix2 ⟨(y 0).val, (y 0).isLt⟩ k
open Idealize.ShloMosaic.ValueIdx in
/-- The features' index there: staging row `y 1`, column `k`. -/
abbrev fidx (y : S2x4096.Idx) (k : Fin 128) : S4096x128.Idx := ix2 ⟨(y 1).val, (y 1).isLt⟩ k

theorem lhs_score_0 (i : S2x4096.Idx) (q : dot_S2x128_S4096x128_S2x4096_1_1_0_0_n_n.contr.Idx) :
    (dot_S2x128_S4096x128_S2x4096_1_1_0_0_n_n.lhsIdx i q 0).val = (i 0).val := by
  unfold DotDims.lhsIdx
  rw [dif_neg (show ¬(0 : Fin S2x128.rank) ∈ dot_S2x128_S4096x128_S2x4096_1_1_0_0_n_n.lhsBatch by decide), dif_pos (show (0 : Fin S2x128.rank) ∈ dot_S2x128_S4096x128_S2x4096_1_1_0_0_n_n.lhsNonContracting by decide)]
  rfl
theorem lhs_score_1 (i : S2x4096.Idx) (q : dot_S2x128_S4096x128_S2x4096_1_1_0_0_n_n.contr.Idx) :
    (dot_S2x128_S4096x128_S2x4096_1_1_0_0_n_n.lhsIdx i q 1).val = (q ⟨0, by decide⟩).val :=
  dot_S2x128_S4096x128_S2x4096_1_1_0_0_n_n.lhsIdx_val_of_single rfl i q
theorem rhs_score_0 (i : S2x4096.Idx) (q : dot_S2x128_S4096x128_S2x4096_1_1_0_0_n_n.contr.Idx) :
    (dot_S2x128_S4096x128_S2x4096_1_1_0_0_n_n.rhsIdx i q 0).val = (i 1).val := by
  unfold DotDims.rhsIdx
  rw [dif_neg (show ¬(0 : Fin S4096x128.rank) ∈ dot_S2x128_S4096x128_S2x4096_1_1_0_0_n_n.rhsBatch by decide), dif_pos (show (0 : Fin S4096x128.rank) ∈ dot_S2x128_S4096x128_S2x4096_1_1_0_0_n_n.rhsNonContracting by decide)]
  rfl
theorem rhs_score_1 (i : S2x4096.Idx) (q : dot_S2x128_S4096x128_S2x4096_1_1_0_0_n_n.contr.Idx) :
    (dot_S2x128_S4096x128_S2x4096_1_1_0_0_n_n.rhsIdx i q 1).val = (q ⟨0, by decide⟩).val :=
  dot_S2x128_S4096x128_S2x4096_1_1_0_0_n_n.rhsIdx_val_of_single rfl i q

/-- The body's product at entry `y`, at the ideal values (where a change of float format is the identity): the sum
    over the 128 features of weight `(y 0, k)` times the staged feature `(y 1, k)` — row `y 1` of the staged block
    and no other. -/
theorem pay_apply (X0 : S4096x128.Idx → Elt Ideal .f32) (X1 : S2x128.Idx → Elt Ideal .f32) (y : S2x4096.Idx) :
    k0_pay1 (F := Ideal) X0 X1 y = ∑ k : Fin 128, X1 (widx y k) * X0 (fidx y k) := by
  unfold k0_pay1
  refine (Cert.Dots.matmul_zero_apply_of dot_S2x128_S4096x128_S2x4096_1_1_0_0_n_n 128 rfl rfl none _ _ y (widx y) (fidx y)
    (fun k => funext fun a => Fin.ext (by
      have hk := ValueIdx.contrEquiv1_symm_val dot_S2x128_S4096x128_S2x4096_1_1_0_0_n_n 128 rfl rfl k
      match a with
      | ⟨0, _⟩ => exact lhs_score_0 _ _
      | ⟨1, _⟩ => exact (lhs_score_1 _ _).trans hk))
    (fun k => funext fun a => Fin.ext (by
      have hk := ValueIdx.contrEquiv1_symm_val dot_S2x128_S4096x128_S2x4096_1_1_0_0_n_n 128 rfl rfl k
      match a with
      | ⟨0, _⟩ => exact rhs_score_0 _ _
      | ⟨1, _⟩ => exact (rhs_score_1 _ _).trans hk))).trans ?_
  refine Finset.sum_congr rfl fun k _ => ?_
  simp only [truncf, Ideal.truncf_def, shapeCast_self]

/-! ## The proof data at the ideal values -/

section Data

variable (m : (ℓ : Loc nD τ sig) → Buf (Elt Ideal) ℓ) (ρ : Dev nD → PrngReg)

/-- The block of node features point `t` fetches: its rows inside the array (4096 of them, 1696 at the last point). -/
def xblk (c : Dev nD) (t : Fin cfg0.N) : (win0_0.xblock (grid0.coords t)).Idx → Elt Ideal .f32 :=
  (win0_0.blk t).view.read (Elt Ideal) (V m c (Pipeline.arrRef spec0 0))

/-- That block filled out to the staging buffer's 4096 rows by `d`: what the buffer holds after the fetch. -/
abbrev xfill (c : Dev nD) (t : Fin cfg0.N) (d : S4096x128.Idx → Elt Ideal .f32) : S4096x128.Idx → Elt Ideal .f32 :=
  win0_0.fill (grid0.coords t) d (xblk m c t)

/-- The two weight rows as the region finds them. -/
abbrev wblk (c : Dev nD) (t : Fin cfg0.N) : S2x128.Idx → Elt Ideal .f32 := iblk m c 1 t

/-- The block of scores the body computes at point `t` when the features' buffer holds its block filled out by `d`. -/
abbrev pay (c : Dev nD) (t : Fin cfg0.N) (d : S4096x128.Idx → Elt Ideal .f32) : S2x4096.Idx → Elt Ideal .f32 :=
  k0_pay1 (F := Ideal) (xfill m c t d) (wblk m c t)

/-- The proof data on core `c`: the arrays as the region finds them; after the body the features' buffer holds its
    block (zero on the rows past the array's end, which nothing reads back), the weights' buffer the weights, the
    scores' buffer their product. -/
def dats (_ : Fin 1) (c : Dev nD) : Dat τ (Elt Ideal) Unit ℕ (UR sig nD τ) ℕ cfg0 c where
  A w := V m c (Pipeline.arrRef spec0 w)
  after w t := match w with
    | ⟨0, _⟩ => xfill m c t (fun _ => (0 : EReal))
    | ⟨1, _⟩ => wblk m c t
    | ⟨2, _⟩ => k0_pay1 (F := Ideal) (xfill m c t (fun _ => (0 : EReal))) (wblk m c t)
  Φ _ := Pipeline.ΦA spec0 c
  q _ := fullShare
  owed _ := 0

/-- The features' buffer was just fetched at every point: the block, `d` past the array's end. -/
theorem before_0 (c : Dev nD) (t : Fin cfg0.N) (d) :
    (dats m 0 c).before (0 : Fin 3) t d = xfill m c t d := by
  unfold Dat.before; rw [if_pos (fetch0_0 t)]; rfl

/-- The weights' buffer holds the weights at every point, fetched there or not. -/
theorem before_1 (c : Dev nD) (t : Fin cfg0.N) (d) :
    (dats m 0 c).before (1 : Fin 3) t d = wblk m c t :=
  before0_1_of m (dats m 0 c) rfl (fun _ => rfl) t d

/-- A staging row inside the array holds the fetched block whatever fills the rows past the array's end. -/
theorem xfill_indep (c : Dev nD) (t : Fin cfg0.N) (d d' : S4096x128.Idx → Elt Ideal .f32) (y : S4096x128.Idx)
    (h : (y 0).val < win0_0.xsize (grid0.coords t) 0) : xfill m c t d y = xfill m c t d' y := by
  have hm : win0_0.moved (grid0.coords t) y = true := (win0_0.moved_iff _ y).mpr fun a => by
    match a with
    | ⟨0, _⟩ => exact h
    | ⟨1, _⟩ => exact (y 1).isLt
  show Window.fill win0_0 (grid0.coords t) d (xblk m c t) y = Window.fill win0_0 (grid0.coords t) d' (xblk m c t) y
  unfold Window.fill; rw [dif_pos hm, dif_pos hm]

/-- The score columns inside the array do not see what fills the features' rows past the array's end: column `j` of the
    part written back reads staging row `j` of the features, a row inside the array (the two windows are cut alike:
    100000 nodes by blocks of 4096). -/
theorem cut_pay_indep (c : Dev nD) (t : Fin cfg0.N) (d d' : S4096x128.Idx → Elt Ideal .f32) :
    win0_2.cut (grid0.coords t) (pay m c t d) = win0_2.cut (grid0.coords t) (pay m c t d') := by
  funext j
  show k0_pay1 (F := Ideal) (xfill m c t d) (wblk m c t) (win0_2.xinj (grid0.coords t) j)
    = k0_pay1 (F := Ideal) (xfill m c t d') (wblk m c t) (win0_2.xinj (grid0.coords t) j)
  rw [pay_apply, pay_apply]
  refine Finset.sum_congr rfl fun k _ => ?_
  have hrow : ((fidx (win0_2.xinj (grid0.coords t) j) k) 0).val < win0_0.xsize (grid0.coords t) 0 := (j 1).isLt
  rw [xfill_indep m c t d d' _ hrow]

/-! ## The body obligation and the run -/

/-- At every point the body finds the features' buffer just fetched (its block, anything past the array's end), the
    weights' buffer at the weights and the scores' buffer at anything, and leaves the first two as they were and the
    scores' buffer at their product — which on the columns inside the array is the product of the block filled out
    with zeros, whatever the fetch left past the array's end. -/
theorem body_obligation (c : Dev nD) : BodyObligationLoose (dats m 0 c) (defs₀ (F := Ideal)) 𝒱₀ () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩⟩
  rw [before_0 m c t d0, before_1 m c t d1]
  iapply (sound_body (F := Ideal) c Set.univ (grid0.coords t) (cfg0.slots t 0) (cfg0.slots t 1) (cfg0.slots t 2)
    (xfill m c t d0) (wblk m c t) ((dats m 0 c).before (2 : Fin 3) t d2) _)
  isplitl [H0 H1 H2]
  · isplitl [H0]
    · iexact H0
    isplitl [H1]
    · iexact H1
    · iexact H2
  iintro ⟨H0, H1, H2⟩
  isplitl [HΦ]; · iexact HΦ
  isplitl [Ho]; · iexact Ho
  isplitl [H0]
  · iexists d0
    change _ ⊢ owns (c : Thread nD τ) (stage0_0 (cfg0.slots t 0)) fullShare
      (win0_0.fill (grid0.coords t) d0 (win0_0.cut (grid0.coords t) (xfill m c t fun _ => (0 : EReal))))
    rw [show win0_0.cut (grid0.coords t) (xfill m c t fun _ => (0 : EReal)) = xblk m c t from win0_0.cut_fill _ _ _]
    try iexact H0
  isplitl [H1]
  · iexact H1
  · iexists pay m c t d0
    change _ ⊢ owns (c : Thread nD τ) (stage0_2 (cfg0.slots t 2)) fullShare
      (win0_2.fill (grid0.coords t) (pay m c t d0) (win0_2.cut (grid0.coords t) (pay m c t fun _ => (0 : EReal))))
    rw [win0_2.fill_congr_cut (grid0.coords t) (cut_pay_indep m c t d0 _)]
    try iexact H2

/-- Every weakly fair execution of the program ends; the scores' array holds what the write-backs left and every
    buffer the region does not stage holds what the host operations after the region computed. -/
theorem run_main : θ_run defs (onTc (τ := τ) (main (F := Ideal))) (s₀ m ρ)
    (Pipeline.FramePost cfgs (dats m) 0 (Pipeline.afterTail₀ cfgs (dats m) 0 (V0 m) [hostOps1])) :=
  Pipeline.θ_run_frame_around cfgs (dats m) 0 launch0 defs₀ 𝒱₀ m ρ main
    (hbody := body_obligation m)
    (hshare := fun c => (dats m 0 c).share_full fun _ => rfl) (howed := fun _ _ => rfl)
    (V₀ := V0 m) (opss := [hostOps1]) (hsub := sfx_sub) (hfresh := sfx_fresh) (hkeep := sfx_keeps)
    (hmain := hmain m 𝒱₀) (hA := fun _ _ => rfl) (hΦ := fun _ _ => rfl)

end Data

end Cert.ScoreBody

end
-- ==== Proof.ScoreValue.lean ====
/-
  What the idealized kernel's run leaves: the scores' array, and the gates computed from it.

  Point `t` of the grid writes back columns `4096 t … 4096 t + 4095` of the (2 × 100000) scores (the last point only
  the 1696 columns inside the array); column `n` holds, in row `r`, the inner product of weight row `r` with node
  `n`'s features. The 25 blocks cover every column (`n` is in block `n / 4096`), so the array ends holding all scores;
  the weight rows are the source weights on top of the target weights.
-/
import proofs.«401236_j21947282882710_3_alg».proof.Proof.ScoreBody
import Idealize.ShloMosaic.Lib.StableHlo.Run

set_option maxRecDepth 16384

noncomputable section

namespace Cert.ScoreValue

open Cert.KernelIdeal Cert.KernelIdeal.Gen Cert.ScoreBody

open Idealize.ShloMosaic Idealize.ShloMosaic.ValueIdx
open Idealize.ShloMosaic.TcCoe
open Idealize.SL Idealize.SL.Sem
open Idealize.ShloMosaic.Pipeline (Dat Cfg Window)
open scoped BigOperators

variable (m : (ℓ : Loc nD τ sig) → Buf (Elt Ideal) ℓ) (ρ : Dev nD → PrngReg)

/-- All scores: entry `(r, n)` is the inner product of weight row `r` with node `n`'s features. -/
def scores (x : S100000x128.Idx → Elt Ideal .f32) (w : S2x128.Idx → Elt Ideal .f32) : S2x100000.Idx → Elt Ideal .f32 :=
  fun i => ∑ k : Fin 128, w (ix2 ⟨(i 0).val, (i 0).isLt⟩ k) * x (ix2 ⟨(i 1).val, (i 1).isLt⟩ k)

/-- The printed index maps and cuts, decided over the 25 points: the features' blocks move down the rows with the
    point, the weights' block stays, the scores' blocks move along the columns with the point, two rows high and
    ending at the array's end. -/
theorem grid_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = t.val
    ∧ win0_2.xsize (grid0.coords t) (0 : Fin 2) = 2
    ∧ t.val * 4096 + win0_2.xsize (grid0.coords t) (1 : Fin 2) = min ((t.val + 1) * 4096) 100000 :=
  (by decide +kernel : ∀ t : Fin grid0.N, _)

/-- WHAT POINT `t` WRITES BACK is its block of all scores of the arrays as the region finds them. -/
theorem flushed_eq (c : Dev nD) (t : Fin cfg0.N) :
    (dats m 0 c).flushed 2 t = ((cfg0.win 2).blk t).view.read (Elt Ideal) (scores (V m c main_arg0) (V m c main_v0)) := by
  obtain ⟨e00, e01, e10, e11, e20, e21, -, -⟩ := grid_facts t
  funext j
  show k0_pay1 (F := Ideal) (xfill m c t fun _ => (0 : EReal)) (wblk m c t) (win0_2.xinj (grid0.coords t) j)
    = scores (V m c main_arg0) (V m c main_v0) (((cfg0.win 2).blk t).view.emb j)
  rw [pay_apply]
  unfold scores
  refine Finset.sum_congr rfl fun k _ => ?_
  have hw : wblk m c t (widx (win0_2.xinj (grid0.coords t) j) k)
      = V m c main_v0 (ix2 ⟨((((cfg0.win 2).blk t).view.emb j) 0).val, ((((cfg0.win 2).blk t).view.emb j) 0).isLt⟩ k) := by
    show V m c main_v0 (((cfg0.win 1).blk t).view.emb (widx (win0_2.xinj (grid0.coords t) j) k)) = _
    congr 1
    funext a; apply Fin.ext
    match a with
    | ⟨0, _⟩ =>
      show win0_1.index t (0 : Fin 2) * 2 + 1 * (j 0).val = win0_2.index t (0 : Fin 2) * 2 + 1 * (j 0).val
      omega
    | ⟨1, _⟩ =>
      show win0_1.index t (1 : Fin 2) * 128 + 1 * k.val = k.val
      omega
  have hm : win0_0.moved (grid0.coords t) (fidx (win0_2.xinj (grid0.coords t) j) k) = true :=
    (win0_0.moved_iff _ _).mpr fun a => by
      match a with
      | ⟨0, _⟩ => exact (j 1).isLt
      | ⟨1, _⟩ => exact k.isLt
  have hx : xfill m c t (fun _ => (0 : EReal)) (fidx (win0_2.xinj (grid0.coords t) j) k)
      = V m c main_arg0 (ix2 ⟨((((cfg0.win 2).blk t).view.emb j) 1).val, ((((cfg0.win 2).blk t).view.emb j) 1).isLt⟩ k) := by
    show Window.fill win0_0 (grid0.coords t) (fun _ => (0 : EReal)) (xblk m c t) (fidx (win0_2.xinj (grid0.coords t) j) k) = _
    unfold Window.fill; rw [dif_pos hm]
    show V m c main_arg0 ((win0_0.blk t).view.emb _) = _
    congr 1
    funext a; apply Fin.ext
    match a with
    | ⟨0, _⟩ =>
      show win0_0.index t (0 : Fin 2) * 4096 + 1 * (j 1).val = win0_2.index t (1 : Fin 2) * 4096 + 1 * (j 1).val
      omega
    | ⟨1, _⟩ =>
      show win0_0.index t (1 : Fin 2) * 128 + 1 * k.val = k.val
      omega
  rw [hw, hx]

/-- An index of the scores' array is in point `t`'s block iff each coordinate is in the block's range on its axis,
    the range cut at the array's end. -/
theorem mem_blk (t : Fin cfg0.N) (i : S2x100000.Idx) :
    i ∈ ((cfg0.win 2).blk t).view.set ↔ ∀ a : Fin 2, win0_2.index t a * S2x4096.size a ≤ (i a).val
      ∧ (i a).val < win0_2.index t a * S2x4096.size a + win0_2.xsize (grid0.coords t) a := by
  show i ∈ ((View.whole main_v1).slice (win0_2.rect t)).set ↔ _
  rw [View.set_slice_whole, Rect.mem_set_unit]
  exact Iff.rfl

/-- Every column is in the block of the point `column / 4096`. -/
theorem cover (i : S2x100000.Idx) : ∃ t : Fin cfg0.N, (cfg0.win 2).flush t = true ∧ i ∈ ((cfg0.win 2).blk t).view.set := by
  have hi0 : (i 0).val < 2 := (i 0).isLt
  have hi1 : (i 1).val < 100000 := (i 1).isLt
  have hq : (i 1).val / 4096 < 25 := by omega
  obtain ⟨t, ht⟩ : ∃ t : Fin cfg0.N, t.val = (i 1).val / 4096 := ⟨⟨(i 1).val / 4096, hq⟩, rfl⟩
  refine ⟨t, flush0_2 t, ?_⟩
  obtain ⟨-, -, -, -, e20, e21, x0, x1⟩ := grid_facts t
  rw [mem_blk]
  intro a
  match a with
  | ⟨0, _⟩ =>
    show win0_2.index t (0 : Fin 2) * 2 ≤ (i 0).val ∧ (i 0).val < win0_2.index t (0 : Fin 2) * 2 + win0_2.xsize (grid0.coords t) (0 : Fin 2)
    rw [e20, x0]; omega
  | ⟨1, _⟩ =>
    show win0_2.index t (1 : Fin 2) * 4096 ≤ (i 1).val ∧ (i 1).val < win0_2.index t (1 : Fin 2) * 4096 + win0_2.xsize (grid0.coords t) (1 : Fin 2)
    rw [e21]
    generalize win0_2.xsize (grid0.coords t) (1 : Fin 2) = z at x1 ⊢
    omega

/-- THE SCORES' ARRAY after the run: all scores. -/
theorem final_scores (c : Dev nD) : (dats m 0 c).arrAt 2 cfg0.N = scores (V m c main_arg0) (V m c main_v0) :=
  (dats m 0 c).arrAt_eq_of_cover 2 _ (fun t _ => flushed_eq m c t) cover

/-! ## The weight rows -/

/-- The weights the region finds: the source row on top of the target row. -/
theorem wcat_eq (c : Dev nD) : (V m c main_v0 : S2x128.Idx → Elt Ideal .f32)
    = concatenate S2x128 0 [⟨S1x128, m ((c : Thread nD τ).loc main_arg2)⟩, ⟨S1x128, m ((c : Thread nD τ).loc main_arg3)⟩]
        concatenates_S1x128_S1x128_S2x128_d0 := by
  show StableHlo.after hostOps0 (fun b => m (c, b)) (Proc.devRef .tc main_v0) = _
  after_results

/-- Row 0 of them is the source weights, -/
theorem wcat_row0 (c : Dev nD) (k : Fin 128) :
    (V m c main_v0 : S2x128.Idx → Elt Ideal .f32) (ix2 (⟨0, by decide⟩ : Fin 2) k) = m ((c : Thread nD τ).loc main_arg2) (ix2 (0 : Fin 1) k) := by
  rw [wcat_eq]
  exact concatenate_pair_apply_left (t := S2x128) (s₁ := S1x128) (s₂ := S1x128) (0 : Fin 2)
    (m ((c : Thread nD τ).loc main_arg2)) (m ((c : Thread nD τ).loc main_arg3)) concatenates_S1x128_S1x128_S2x128_d0
    (ix2 (⟨0, by decide⟩ : Fin 2) k) rfl (ix2 (0 : Fin 1) k)
    (fun b => by match b with | ⟨0, _⟩ => rfl | ⟨1, _⟩ => rfl)

/-- row 1 the target weights. -/
theorem wcat_row1 (c : Dev nD) (k : Fin 128) :
    (V m c main_v0 : S2x128.Idx → Elt Ideal .f32) (ix2 (⟨1, by decide⟩ : Fin 2) k) = m ((c : Thread nD τ).loc main_arg3) (ix2 (0 : Fin 1) k) := by
  rw [wcat_eq]
  exact concatenate_pair_apply_right (t := S2x128) (s₁ := S1x128) (s₂ := S1x128) (0 : Fin 2)
    (m ((c : Thread nD τ).loc main_arg2)) (m ((c : Thread nD τ).loc main_arg3)) concatenates_S1x128_S1x128_S2x128_d0
    (ix2 (⟨1, by decide⟩ : Fin 2) k) rfl rfl (ix2 (0 : Fin 1) k)
    (fun b hb => by match b with | ⟨0, _⟩ => exact absurd rfl hb | ⟨1, _⟩ => rfl) rfl

end Cert.ScoreValue

end
-- ==== Proof.Spec.lean ====
/-
  The edge gate as ONE function of the four argument arrays.

  Every node `n` has two scores, the inner products of its feature row with the source weights and with the target
  weights. An edge `e` names two nodes by integer words: a negative word wraps once by the number of nodes, and the
  table lookup then clamps the word into the table. The gate of the edge is the logistic function of the sum of its
  source node's source score and its target node's target score, written as the quotient `1 / (1 + exp (-z))`
  of the extended reals' operations.
-/
import Idealize.ShloMosaic.Lib.ValueIdx
import Idealize.ShloMosaic.PureOps.Ideal.Laws

noncomputable section

namespace Cert.EdgeGate

open Idealize.ShloMosaic Idealize.ShloMosaic.ValueIdx
open scoped BigOperators

/-- The node features, the edge list (row 0 the sources, row 1 the targets), a weight row, the gates. -/
abbrev SX : Shape := ⟨2, ![100000, 128]⟩
abbrev SE : Shape := ⟨2, ![2, 1000000]⟩
abbrev SW : Shape := ⟨2, ![1, 128]⟩
abbrev SO : Shape := ⟨2, ![1000000, 1]⟩

/-- The node an index word denotes: a negative word is moved up by the number of nodes, and the result, read signed,
    is clamped into `[0, 99999]`. -/
def node (i : BitVec 32) : Fin 100000 :=
  ⟨min (Scalar.select (IntOp.cmpi .slt i 0#32) (IntOp.addi i 100000#32) i).toInt.toNat 99999, by omega⟩

/-- A node's score against a weight row: the inner product over the 128 features. -/
def score (x : FVec Ideal SX .f32) (w : FVec Ideal SW .f32) (n : Fin 100000) : EReal :=
  ∑ k : Fin 128, w (ix2 (0 : Fin 1) k) * x (ix2 n k)

/-- The logistic function as the two programs spell it: `1 / (1 + exp (-z))`, the literal `1` the f32 word of one. -/
def gate (z : Ideal .f32) : Ideal .f32 :=
  FloatOps.hostDivf (F := Ideal) (FloatOps.ofBits (F := Ideal) .f32 0x3F800000#32)
    (FloatOps.addf (F := Ideal) (FloatOps.ofBits (F := Ideal) .f32 0x3F800000#32)
      (FloatOps.hostUnary (F := Ideal) .exp (FloatOps.hostNegf (F := Ideal) z)))

/-- The gates of all edges: edge `e` reads its source word at `(0, e)` and its target word at `(1, e)`. -/
def result (x : FVec Ideal SX .f32) (ei : IVec SE 32) (ws wt : FVec Ideal SW .f32) : FVec Ideal SO .f32 := fun j =>
  gate (FloatOps.addf (F := Ideal) (φ := .f32) (score x ws (node (ei (ix2 (0 : Fin 2) (j 0))))) (score x wt (node (ei (ix2 (1 : Fin 2) (j 0))))))

end Cert.EdgeGate

end
-- ==== Proof.ScoreTail.lean ====
/-
  The host operations after the region, as one function of the scores and the edge list.

  From the (2 × 100000) array of scores the program takes row 0 (the source scores) and row 1 (the target scores) as flat
  tables, reads each edge's two index words (a negative word moved up by 100000), looks the two tables up at them (the
  lookup clamps a word into the table), adds the two scores and applies `1 / (1 + exp (-z))`, and lays the gates out
  as a column.
-/
import proofs.«401236_j21947282882710_3_alg».proof.Proof.Gen.KernelIdeal
import proofs.«401236_j21947282882710_3_alg».proof.Proof.Spec
import Idealize.ShloMosaic.Lib.Pipeline.Value
import Idealize.ShloMosaic.Lib.ValueIdx
import Idealize.ShloMosaic.Lib.StableHlo.Predicate
import Idealize.ShloMosaic.PureOps.Ideal.Laws

noncomputable section

namespace Cert.ScoreTail

open Cert.KernelIdeal Cert.KernelIdeal.Gen
open Idealize.ShloMosaic Idealize.ShloMosaic.ValueIdx

/-- Row `0` of the edge list as a flat vector of words. -/
def row0 (ei : IVec S2x1000000 32) : IVec S1000000 32 :=
  shapeCast S1000000 (extractStridedSlice S1x1000000 ![0, 0] ei slices_S2x1000000_S1x1000000_0_0) shapeCasts_S1x1000000_S1000000
/-- Row `1`. -/
def row1 (ei : IVec S2x1000000 32) : IVec S1000000 32 :=
  shapeCast S1000000 (extractStridedSlice S1x1000000 ![1, 0] ei slices_S2x1000000_S1x1000000_1_0) shapeCasts_S1x1000000_S1000000
/-- A vector of index words, each negative one moved up by 100000, as a column of start indices. -/
def wrap (v : IVec S1000000 32) : IVec S1000000x1 32 :=
  broadcastInDim S1000000x1 ![0] bcast_S1000000_S1000000x1_0
    (select (cmpi .slt v (broadcastInDim S1000000 ![] bcast_S_S1000000 (constantI S_ 32 0#32)))
      (addi v (broadcastInDim S1000000 ![] bcast_S_S1000000 (constantI S_ 32 100000#32))) v)
/-- Row `0` of the scores as a flat table. -/
def tab0 (s : FVec Ideal S2x100000 .f32) : FVec Ideal S100000 .f32 :=
  shapeCast S100000 (extractStridedSlice S1x100000 ![0, 0] s slices_S2x100000_S1x100000_0_0) shapeCasts_S1x100000_S100000
/-- Row `1`. -/
def tab1 (s : FVec Ideal S2x100000 .f32) : FVec Ideal S100000 .f32 :=
  shapeCast S100000 (extractStridedSlice S1x100000 ![1, 0] s slices_S2x100000_S1x100000_1_0) shapeCasts_S1x100000_S100000
/-- The literal one, at every edge. -/
def ones : FVec Ideal S1000000 .f32 :=
  broadcastInDim S1000000 ![] bcast_S_S1000000 (constant (F := Ideal) S_ .f32 0x3F800000#32)

/-- The operations after the region, composed: the gates as a column, from the scores and the edge list. -/
def tail (s : FVec Ideal S2x100000 .f32) (ei : IVec S2x1000000 32) : FVec Ideal S1000000x1 .f32 :=
  broadcastInDim S1000000x1 ![0] bcast_S1000000_S1000000x1_0
    (Host.divf ones (addf ones (Host.exp (Host.negf (addf
      (Host.gather gather_S100000_S1000000x1_S1000000_n_0_n_n_0_1_1 (tab0 s) (wrap (row0 ei)))
      (Host.gather gather_S100000_S1000000x1_S1000000_n_0_n_n_0_1_1 (tab1 s) (wrap (row1 ei))))))))

/-! ## Each operation read at one index -/

/-- The library's rank-1 index at a coordinate is the rank-1 index from that coordinate. -/
theorem ofFin_eq_ix1 {n : Nat} (p : Fin n) : Shape.Idx.ofFin p = ix1 p := by
  funext d
  match d with
  | ⟨0, _⟩ => rfl

/-- Row `p` of a column, in the library's spelling, is the rank-2 index `(p, 0)`. -/
theorem ixP_eq_ix2 {n : Nat} (p : Fin n) : Idealize.ShloMosaic.StableHlo.Predicate.ixP p = ix2 p (0 : Fin 1) := by
  funext d
  match d with
  | ⟨0, _⟩ => rfl
  | ⟨1, _⟩ => rfl

/-- A flat vector laid out as a column reads, at `(e, 0)`, the vector at `e`. -/
theorem col_read {α : Type} (y : S1000000.Idx → α) (e : Fin 1000000) :
    broadcastInDim S1000000x1 ![0] bcast_S1000000_S1000000x1_0 y (ix2 e (0 : Fin 1)) = y (ix1 e) :=
  broadcastInDim_apply _ bcast_S1000000_S1000000x1_0 y (ix2 e (0 : Fin 1)) (ix1 e) (fun a => match a with
    | ⟨0, _⟩ => by show e.val = if (1000000 : Nat) = 1 then 0 else e.val; rw [if_neg (by decide)])

/-- A scalar spread over the flat vector reads the scalar everywhere. -/
theorem scalar_read {α : Type} (c : S_.Idx → α) (p : S1000000.Idx) :
    broadcastInDim S1000000 ![] bcast_S_S1000000 c p = c ix0 :=
  broadcastInDim_apply _ bcast_S_S1000000 c p ix0 (fun a => a.elim0)

/-- The literal one at every edge is the f32 word of one. -/
theorem ones_read (p : S1000000.Idx) : ones p = FloatOps.ofBits (F := Ideal) .f32 0x3F800000#32 := by
  unfold ones
  rw [scalar_read]
  rfl

/-- Row 0 of the edge list, flattened, at `e` is the word `(0, e)`: the flattening keeps the row-major position, the
    slice starts at row 0. -/
theorem row0_read (ei : IVec S2x1000000 32) (e : Fin 1000000) : row0 ei (ix1 e) = ei (ix2 (0 : Fin 2) e) := by
  unfold row0
  rw [shapeCast_apply _ shapeCasts_S1x1000000_S1000000 (ix1 e) (ix2 (0 : Fin 1) e)
    (by rewrite [Shape.rowMajor_val_two, Shape.rowMajor_val_one]; show 0 * 1000000 + e.val = e.val; omega)]
  exact extractStridedSlice_apply ![0, 0] ei slices_S2x1000000_S1x1000000_0_0 (ix2 (0 : Fin 1) e) (ix2 (0 : Fin 2) e)
    (fun a => match a with
      | ⟨0, _⟩ => rfl
      | ⟨1, _⟩ => by show e.val = 0 + e.val; omega)

/-- Row 1 of the edge list, flattened, at `e` is the word `(1, e)`: the slice starts at row 1. -/
theorem row1_read (ei : IVec S2x1000000 32) (e : Fin 1000000) : row1 ei (ix1 e) = ei (ix2 (1 : Fin 2) e) := by
  unfold row1
  rw [shapeCast_apply _ shapeCasts_S1x1000000_S1000000 (ix1 e) (ix2 (0 : Fin 1) e)
    (by rewrite [Shape.rowMajor_val_two, Shape.rowMajor_val_one]; show 0 * 1000000 + e.val = e.val; omega)]
  exact extractStridedSlice_apply ![1, 0] ei slices_S2x1000000_S1x1000000_1_0 (ix2 (0 : Fin 1) e) (ix2 (1 : Fin 2) e)
    (fun a => match a with
      | ⟨0, _⟩ => rfl
      | ⟨1, _⟩ => by show e.val = 0 + e.val; omega)

/-- The source table at node `n` is the score `(0, n)`. -/
theorem tab0_read (s : FVec Ideal S2x100000 .f32) (n : Fin 100000) : tab0 s (ix1 n) = s (ix2 (0 : Fin 2) n) := by
  unfold tab0
  rw [shapeCast_apply _ shapeCasts_S1x100000_S100000 (ix1 n) (ix2 (0 : Fin 1) n)
    (by rewrite [Shape.rowMajor_val_two, Shape.rowMajor_val_one]; show 0 * 100000 + n.val = n.val; omega)]
  exact extractStridedSlice_apply ![0, 0] s slices_S2x100000_S1x100000_0_0 (ix2 (0 : Fin 1) n) (ix2 (0 : Fin 2) n)
    (fun a => match a with
      | ⟨0, _⟩ => rfl
      | ⟨1, _⟩ => by show n.val = 0 + n.val; omega)

/-- The target table at node `n` is the score `(1, n)`. -/
theorem tab1_read (s : FVec Ideal S2x100000 .f32) (n : Fin 100000) : tab1 s (ix1 n) = s (ix2 (1 : Fin 2) n) := by
  unfold tab1
  rw [shapeCast_apply _ shapeCasts_S1x100000_S100000 (ix1 n) (ix2 (0 : Fin 1) n)
    (by rewrite [Shape.rowMajor_val_two, Shape.rowMajor_val_one]; show 0 * 100000 + n.val = n.val; omega)]
  exact extractStridedSlice_apply ![1, 0] s slices_S2x100000_S1x100000_1_0 (ix2 (0 : Fin 1) n) (ix2 (1 : Fin 2) n)
    (fun a => match a with
      | ⟨0, _⟩ => rfl
      | ⟨1, _⟩ => by show n.val = 0 + n.val; omega)

/-- The wrap of one index word: a negative word is moved up by the number of nodes. -/
abbrev wrapWord (i : BitVec 32) : BitVec 32 :=
  Scalar.select (IntOp.cmpi .slt i 0#32) (IntOp.addi i 100000#32) i

/-- The column of start indices at `(e, 0)` is the wrapped word of the vector at `e`. -/
theorem wrap_read (v : IVec S1000000 32) (e : Fin 1000000) : wrap v (ix2 e (0 : Fin 1)) = wrapWord (v (ix1 e)) := by
  unfold wrap
  rw [col_read]
  show Scalar.select (IntOp.cmpi .slt (v (ix1 e)) (broadcastInDim S1000000 ![] bcast_S_S1000000 (constantI S_ 32 0#32) (ix1 e)))
      (IntOp.addi (v (ix1 e)) (broadcastInDim S1000000 ![] bcast_S_S1000000 (constantI S_ 32 100000#32) (ix1 e))) (v (ix1 e))
    = wrapWord (v (ix1 e))
  rw [scalar_read, scalar_read]
  rfl

/-- THE LOOKUP AT EDGE `e`: the flat table at the start word of row `e` of the column, read signed and clamped into
    `[0, 99999]`; the start word is named `w` so that it can be rewritten without touching the bound's proof. -/
theorem take_read {α : Type} (t : S100000.Idx → α) (idx : IVec S1000000x1 32) (e : Fin 1000000) (w : BitVec 32)
    (hw : idx (ix2 e (0 : Fin 1)) = w) :
    Host.gather gather_S100000_S1000000x1_S1000000_n_0_n_n_0_1_1 t idx (ix1 e)
      = t (ix1 (⟨min w.toInt.toNat 99999, by omega⟩ : Fin 100000)) := by
  subst hw
  have h := Idealize.ShloMosaic.StableHlo.Predicate.gather_take gather_S100000_S1000000x1_S1000000_n_0_n_n_0_1_1
    rfl rfl rfl rfl t idx e (by decide)
  rw [ofFin_eq_ix1] at h
  refine h.trans (congrArg t ?_)
  rw [ofFin_eq_ix1]
  exact congrArg ix1 (Fin.ext (congrArg (fun i => min (idx i).toInt.toNat 99999) (ixP_eq_ix2 e)))

/-! ## The tail at one edge -/

/-- The operations after the region, read at one edge: the gate of the sum of the source score of the edge's source
    node and the target score of its target node. -/
theorem tail_apply (s : FVec Ideal S2x100000 .f32) (ei : IVec S2x1000000 32) (j : S1000000x1.Idx) :
    tail s ei j = Cert.EdgeGate.gate (FloatOps.addf (F := Ideal) (φ := .f32)
      (s (ix2 (0 : Fin 2) (Cert.EdgeGate.node (ei (ix2 (0 : Fin 2) (j 0))))))
      (s (ix2 (1 : Fin 2) (Cert.EdgeGate.node (ei (ix2 (1 : Fin 2) (j 0))))))) := by
  obtain ⟨e, z, rfl⟩ : ∃ (e : Fin 1000000) (z : Fin 1), j = ix2 e z := ⟨j 0, j 1, eq_ix2 j⟩
  obtain rfl : z = 0 := Subsingleton.elim _ _
  unfold tail
  rw [col_read]
  show FloatOps.hostDivf (F := Ideal) (ones (ix1 e)) (FloatOps.addf (F := Ideal) (ones (ix1 e))
      (FloatOps.hostUnary (F := Ideal) .exp (FloatOps.hostNegf (F := Ideal) (FloatOps.addf (F := Ideal)
        (Host.gather gather_S100000_S1000000x1_S1000000_n_0_n_n_0_1_1 (tab0 s) (wrap (row0 ei)) (ix1 e))
        (Host.gather gather_S100000_S1000000x1_S1000000_n_0_n_n_0_1_1 (tab1 s) (wrap (row1 ei)) (ix1 e)))))) = _
  rw [ones_read, take_read _ _ e _ ((wrap_read _ e).trans (congrArg wrapWord (row0_read ei e))),
    take_read _ _ e _ ((wrap_read _ e).trans (congrArg wrapWord (row1_read ei e))), tab0_read, tab1_read]
  rfl

end Cert.ScoreTail

end
-- ==== Proof.ScoreResult.lean ====
/-
  The idealized kernel's run ends with the edge gates.

  After the region the scores' array holds every node's two scores; the operations after the region read the two
  scores each edge names and apply `1 / (1 + exp (-z))` to their sum. Row 0 of the weights is the source row and row 1
  the target row, so a node's entries in the scores' array are its source score and its target score.
-/
import proofs.«401236_j21947282882710_3_alg».proof.Defs
import proofs.«401236_j21947282882710_3_alg».proof.Proof.Gen.Pre_finite_inputs
import proofs.«401236_j21947282882710_3_alg».proof.Proof.ScoreValue
import proofs.«401236_j21947282882710_3_alg».proof.Proof.ScoreTail

set_option maxRecDepth 16384

noncomputable section

namespace Cert.ScoreResult

open Cert.KernelIdeal Cert.KernelIdeal.Gen Cert.ScoreBody Cert.ScoreValue

open Idealize.ShloMosaic Idealize.ShloMosaic.ValueIdx
open Idealize.ShloMosaic.TcCoe
open Idealize.SL Idealize.SL.Sem
open Idealize.ShloMosaic.Pipeline (Dat Cfg Window)
open scoped BigOperators

variable (m : (ℓ : Loc nD τ sig) → Buf (Elt Ideal) ℓ) (ρ : Dev nD → PrngReg)

/-! ## The operations after the region -/

/-- From any contents of the buffers, the 36 operations after the region leave in the result's buffer the gates
    computed from what the scores' buffer and the edge list's buffer hold. -/
theorem tail_after (W : Valuation τ sig (Elt Ideal)) :
    StableHlo.after (hostOps1 (F := Ideal)) W (Proc.devRef .tc main_v31)
      = Cert.ScoreTail.tail (W (Proc.devRef .tc main_v1)) (W (Proc.devRef .tc main_arg1)) := by
  after_results_simp <;> rfl

/-- After the run the result's buffer holds the gates computed from the scores' final array and the edge list as
    launched. -/
theorem tail_run (c : Dev nD) :
    Pipeline.afterTail₀ cfgs (dats m) 0 (V0 m) [hostOps1] c main_v31
      = Cert.ScoreTail.tail ((dats m 0 c).arrAt 2 cfg0.N) (m ((c : Thread nD τ).loc main_arg1)) := by
  unfold Pipeline.afterTail₀
  show StableHlo.after (hostOps1 (F := Ideal)) _ (Proc.devRef .tc main_v31) = _
  refine (tail_after _).trans ?_
  exact congrArg₂ Cert.ScoreTail.tail
    (Pipeline.withArrays_arr spec0 launch0.win.arr_inj c _ _ 2)
    ((Pipeline.withArrays_of_ne spec0 c _ _ main_arg1 (by exact (by decide : ∀ w, Pipeline.arrRef spec0 w ≠ main_arg1))).trans (V_main_arg1 m c))

/-! ## The gates -/

/-- The gates computed from all scores are the edge gates, when row 0 of the weights is the source row and row 1 the
    target row. -/
theorem gates_eq (x : S100000x128.Idx → Elt Ideal .f32) (ei : IVec S2x1000000 32) (ws wt : S1x128.Idx → Elt Ideal .f32)
    (w : S2x128.Idx → Elt Ideal .f32)
    (h0 : ∀ k : Fin 128, w (ix2 (⟨0, by decide⟩ : Fin 2) k) = ws (ix2 (0 : Fin 1) k))
    (h1 : ∀ k : Fin 128, w (ix2 (⟨1, by decide⟩ : Fin 2) k) = wt (ix2 (0 : Fin 1) k)) :
    Cert.ScoreTail.tail (scores x w) ei = Cert.EdgeGate.result x ei ws wt := by
  have s0 : ∀ n : Fin 100000, scores x w (ix2 (0 : Fin 2) n) = Cert.EdgeGate.score x ws n := fun n => by
    unfold scores Cert.EdgeGate.score
    refine Finset.sum_congr rfl fun k _ => ?_
    show w (ix2 (⟨0, by decide⟩ : Fin 2) k) * x (ix2 n k) = ws (ix2 (0 : Fin 1) k) * x (ix2 n k)
    rw [h0 k]
  have s1 : ∀ n : Fin 100000, scores x w (ix2 (1 : Fin 2) n) = Cert.EdgeGate.score x wt n := fun n => by
    unfold scores Cert.EdgeGate.score
    refine Finset.sum_congr rfl fun k _ => ?_
    show w (ix2 (⟨1, by decide⟩ : Fin 2) k) * x (ix2 n k) = wt (ix2 (0 : Fin 1) k) * x (ix2 n k)
    rw [h1 k]
  funext j
  rw [Cert.ScoreTail.tail_apply, s0, s1]
  rfl

/-! ## The run -/

/-- Every weakly fair execution of the idealized kernel ends with the edge gates of its arguments in the result's
    buffer and the arguments as launched. -/
theorem run_result : θ_run defs (onTc (τ := τ) (main (F := Ideal))) ⟨m, fun _ => 0, ρ⟩ fun r => ∀ c : Dev nD,
    r.2.mem ((c.tc : Thread nD τ).loc main_v31)
        = Cert.EdgeGate.result (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨((h c).2 main_v31 (Pipeline.mem_restRefs_of main_v31 (by decide) (by decide))).trans ((tail_run m c).trans (by
        rw [final_scores m c, V_main_arg0 m c]
        exact gates_eq _ _ _ _ _ (wcat_row0 m c) (wcat_row1 m c))),
      ((h c).1 0).trans (((dats m 0 c).arrAt_in 0 rfl _).trans (V_main_arg0 m c)),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

/-- The idealized kernel runs and leaves its arguments as launched. -/
theorem frame : Cert.frame_KernelIdeal := fun m ρ _ => frame_of m ρ (dats m) (fun _ _ => rfl) (run_main m ρ)

end Cert.ScoreResult

end
-- ==== Proof.RefValue.lean ====
/-
  The reference's run read as the edge gate.

  The reference computes, for every node, two scores (the inner products of its feature row with the source and the
  target weight rows, as two contractions over the 128 features), looks both up per edge through a table lookup whose
  start index is the edge's word wrapped once when negative, adds them and applies the logistic function. Read at one
  edge, the lookup is the table at the word read signed and clamped into the table, the index chain is the wrap, each
  contraction is the plain sum of products over the features, and the pointwise tail is the quotient that the
  specification names the gate. Nothing but the commutativity of the product is used of the arithmetic.
-/
import proofs.«401236_j21947282882710_3_alg».proof.Defs
import proofs.«401236_j21947282882710_3_alg».proof.Proof.Gen.ReferenceIdeal.Run
import proofs.«401236_j21947282882710_3_alg».proof.Proof.Gen.ReferenceIdeal.Read
import proofs.«401236_j21947282882710_3_alg».proof.Proof.Spec
import proofs.«401236_j21947282882710_3_alg».proof.Proof.LibOneAxisContraction
import proofs.«401236_j21947282882710_3_alg».proof.Proof.Gen.Pre_finite_inputs
import Idealize.ShloMosaic.Lib.ValueIdx

noncomputable section

namespace Cert.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx
open scoped BigOperators

/-! ## The table lookup read at one edge -/

/-- The lookup's dimension numbers: the table's axis 0 is collapsed and start-indexed, its axis 1 (of extent one) is
    the result's offset axis, and the index vector lies along axis 1 of the column of start indices. -/
abbrev gd : GatherDims S100000x1 S1000000x1 S1000000x1 := gather_S100000x1_S1000000x1_S1000000x1_1_0_n_n_0_1_11

/-- The start-indices entry that result row `e` reads for the one component of its start index is the column's
    entry `(e, 0)`: the row is the result's batch coordinate, the index vector's axis carries the component number. -/
theorem gd_siIdx (e : Fin 1000000) (h : List.idxOf (0 : Fin 2) gd.startIndexMap < gd.startIndexMap.length) :
    gd.siIdx (ix2 e (0 : Fin 1)) ⟨List.idxOf (0 : Fin 2) gd.startIndexMap, h⟩ = ix2 e (0 : Fin 1) := by
  funext b
  refine Fin.ext ?_
  match b with
  | ⟨0, _⟩ => rfl
  | ⟨1, _⟩ => rfl

/-- THE LOOKUP AT EDGE `e`: the table's row at the start index `(e, 0)` of the column, read signed and clamped into
    `[0, 99999]`. On axis 0 the operand coordinate is the clamped start alone (no batching axis, the axis is
    collapsed); on axis 1 every coordinate is `0`, the axis having extent one. -/
theorem gather_read {α : Type} (t : S100000x1.Idx → α) (idx : IVec S1000000x1 32) (e : Fin 1000000) :
    Host.gather gather_S100000x1_S1000000x1_S1000000x1_1_0_n_n_0_1_11 t idx (ix2 e (0 : Fin 1))
      = t (ix2 (⟨min (idx (ix2 e (0 : Fin 1))).toInt.toNat 99999, by omega⟩ : Fin 100000) (0 : Fin 1)) := by
  unfold Host.gather
  congr 1
  funext a
  refine Fin.ext ?_
  match a with
  | ⟨0, _⟩ =>
    have hm : (0 : Fin 2) ∈ gd.startIndexMap := List.mem_singleton.mpr rfl
    show gd.start (ix2 e (0 : Fin 1)) idx 0 + gd.batchCoord (ix2 e (0 : Fin 1)) 0 + gd.offCoord (ix2 e (0 : Fin 1)) 0
      = min (idx (ix2 e (0 : Fin 1))).toInt.toNat 99999
    rw [GatherDims.batchCoord_eq_zero _ _ _ List.not_mem_nil,
      GatherDims.offCoord_eq_zero _ _ _ (fun h => ((GatherDims.mem_sKept _ _).mp h).1 (List.mem_singleton.mpr rfl)),
      Nat.add_zero]
    unfold GatherDims.start
    rw [dif_pos hm, gd_siIdx e]
    rfl
  | ⟨1, _⟩ =>
    have h1 : (gd.operandIdx (ix2 e (0 : Fin 1)) idx 1).val < 1 := (gd.operandIdx (ix2 e (0 : Fin 1)) idx 1).isLt
    show (gd.operandIdx (ix2 e (0 : Fin 1)) idx 1).val = 0
    omega

/-- The same with the start word named: once the column's entry `(e, 0)` is known to be `w`, the lookup reads the
    table at `w` read signed and clamped. -/
theorem gather_read_of {α : Type} (t : S100000x1.Idx → α) (idx : IVec S1000000x1 32) (e : Fin 1000000) (w : BitVec 32)
    (hw : idx (ix2 e (0 : Fin 1)) = w) :
    Host.gather gather_S100000x1_S1000000x1_S1000000x1_1_0_n_n_0_1_11 t idx (ix2 e (0 : Fin 1))
      = t (ix2 (⟨min w.toInt.toNat 99999, by omega⟩ : Fin 100000) (0 : Fin 1)) := by
  subst hw
  exact gather_read t idx e

/-! ## The index chain read at one edge -/

/-- The wrap of an index word: a negative word is moved up by the number of nodes. -/
abbrev wrap (i : BitVec 32) : BitVec 32 :=
  Scalar.select (IntOp.cmpi .slt i 0#32) (IntOp.addi i 100000#32) i

/-- Row 0 of the edge list, flattened, read at `e` is the word `(0, e)`. -/
theorem sources_read (ei : IVec S2x1000000 32) (e : Fin 1000000) :
    val_main_v5 (F := Ideal) ei (idx_main_v11 (ix2 e (0 : Fin 1))) = ei (ix2 (0 : Fin 2) e) := by
  rw [val_main_v5_apply, val_main_v4_apply]
  congr 1
  funext a
  match a with
  | ⟨0, _⟩ => rfl
  | ⟨1, _⟩ => exact Fin.ext (Nat.mod_eq_of_lt e.isLt)

/-- Row 1 of the edge list, flattened, read at `e` is the word `(1, e)`. -/
theorem targets_read (ei : IVec S2x1000000 32) (e : Fin 1000000) :
    val_main_v14 (F := Ideal) ei (idx_main_v20 (ix2 e (0 : Fin 1))) = ei (ix2 (1 : Fin 2) e) := by
  rw [val_main_v14_apply, val_main_v13_apply]
  congr 1
  funext a
  match a with
  | ⟨0, _⟩ => rfl
  | ⟨1, _⟩ => exact Fin.ext (Nat.mod_eq_of_lt e.isLt)

/-- The column of source start indices at `(e, 0)` is the wrapped source word of edge `e`. -/
theorem source_index (ei : IVec S2x1000000 32) (e : Fin 1000000) :
    val_main_v11 (F := Ideal) ei (ix2 e (0 : Fin 1)) = wrap (ei (ix2 (0 : Fin 2) e)) := by
  rw [val_main_v11_apply, val_main_v10_apply, val_main_v7_apply, val_main_v9_apply, val_main_v6_apply, val_main_c_apply,
    val_main_v8_apply, val_main_c_0_apply, sources_read]

/-- The column of target start indices at `(e, 0)` is the wrapped target word of edge `e`. -/
theorem target_index (ei : IVec S2x1000000 32) (e : Fin 1000000) :
    val_main_v20 (F := Ideal) ei (ix2 e (0 : Fin 1)) = wrap (ei (ix2 (1 : Fin 2) e)) := by
  rw [val_main_v20_apply, val_main_v19_apply, val_main_v16_apply, val_main_v18_apply, val_main_v15_apply, val_main_c_1_apply,
    val_main_v17_apply, val_main_c_2_apply, targets_read]

/-! ## The two contractions read at one node -/

/-- The source contraction at node `n` is the node's score against the source weights: the transposed weight column at
    `(k, 0)` is the weight row at `(0, k)`, and the factors of each product are exchanged. -/
theorem source_score (x : FVec Ideal S100000x128 .f32) (ws : FVec Ideal S1x128 .f32) (n : Fin 100000) :
    val_main_v1 (F := Ideal) x ws (ix2 n (0 : Fin 1)) = Cert.EdgeGate.score x ws n := by
  rw [val_main_v1_apply]
  unfold Cert.EdgeGate.score
  refine Finset.sum_congr rfl fun k _ => ?_
  have hl : lidx_main_v1 (ix2 n (0 : Fin 1)) k = ix2 n k := by
    funext a
    match a with
    | ⟨0, _⟩ => rfl
    | ⟨1, _⟩ => rfl
  have hr : idx_main_v0 (ridx_main_v1 (ix2 n (0 : Fin 1)) k) = ix2 (0 : Fin 1) k := by
    funext a
    match a with
    | ⟨0, _⟩ => rfl
    | ⟨1, _⟩ => rfl
  rw [val_main_v0_apply, hl, hr, mul_comm]

/-- The target contraction at node `n` is the node's score against the target weights. -/
theorem target_score (x : FVec Ideal S100000x128 .f32) (wt : FVec Ideal S1x128 .f32) (n : Fin 100000) :
    val_main_v3 (F := Ideal) x wt (ix2 n (0 : Fin 1)) = Cert.EdgeGate.score x wt n := by
  rw [val_main_v3_apply]
  unfold Cert.EdgeGate.score
  refine Finset.sum_congr rfl fun k _ => ?_
  have hl : lidx_main_v3 (ix2 n (0 : Fin 1)) k = ix2 n k := by
    funext a
    match a with
    | ⟨0, _⟩ => rfl
    | ⟨1, _⟩ => rfl
  have hr : idx_main_v2 (ridx_main_v3 (ix2 n (0 : Fin 1)) k) = ix2 (0 : Fin 1) k := by
    funext a
    match a with
    | ⟨0, _⟩ => rfl
    | ⟨1, _⟩ => rfl
  rw [val_main_v2_apply, hl, hr, mul_comm]

/-! ## The run's result is the edge gate -/

/-- The composed term of the reference's 35 operations, over any four argument arrays, is the gate of every edge. -/
theorem value_eq (x : FVec Ideal S100000x128 .f32) (ei : IVec S2x1000000 32) (ws wt : FVec Ideal S1x128 .f32) :
    val_main_v28 (F := Ideal) x ei ws wt = Cert.EdgeGate.result x ei ws wt := by
  funext j
  obtain ⟨e, z, rfl⟩ : ∃ (e : Fin 1000000) (z : Fin 1), j = ix2 e z := ⟨j 0, j 1, eq_ix2 j⟩
  obtain rfl : z = 0 := Subsingleton.elim _ _
  rw [val_main_v28_apply, val_main_v27_apply, val_main_cst_3_apply, val_main_v26_apply, val_main_v25_apply,
    val_main_cst_apply, val_main_v24_apply, val_main_v23_apply, val_main_v22_apply]
  unfold val_main_v12 val_main_v21
  rw [gather_read_of _ _ e _ (source_index ei e), gather_read_of _ _ e _ (target_index ei e), source_score, target_score]
  rfl

/-! ## The run -/

/-- The reference runs from any memory and leaves its four arguments as they were: the generated run with the result
    dropped. The precondition is not used. -/
theorem frame : Cert.frame_ReferenceIdeal :=
  fun m ρ _ => (θ_run (Cert.ReferenceIdeal.defs (F := Ideal)) _ _).mono (fun _ h c => (h c).2)
    (Cert.ReferenceIdeal.Value.run (F := Ideal) m ρ)

/-- Every execution of the reference ends with its result buffer holding the edge gate of the four argument arrays as
    they were at launch, the arguments unchanged. -/
theorem run_result (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v28)
          = Cert.EdgeGate.result (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run (defs (F := Ideal)) _ _).mono
    (fun _ h c => ⟨((h c).1.trans (val_main_v28_eq (F := Ideal) _ _ _ _)).trans (value_eq _ _ _ _), (h c).2⟩)
    (Cert.ReferenceIdeal.Value.run (F := Ideal) m ρ)

end Cert.RefValue

end
-- ==== Proof.lean ====
/-
  The edge-gate kernel against its reference, over the extended reals.

  Both programs compute, for every edge `e = (u, v)` of a graph of 100000 nodes with 128 features each, the gate
  `1 / (1 + exp (-(<w_src, x_u> + <w_tgt, x_v>)))`. The reference takes the two inner products of every node with two
  host matrix products and looks them up edge by edge. The kernel stacks the two weight rows, computes all scores
  `[w_src; w_tgt] · xᵀ` block by block (25 blocks of 4096 nodes, the last one overhanging the array by 2400 rows that
  are never written back), and does the same lookups on the host. An index word names its node the same way on both
  sides: a negative word moved up by the number of nodes, the lookup clamping it into the table. A score is a sum over
  the 128 features of products, `w · x` in the kernel and `x · w` in the reference: equal term by term because
  multiplication of extended reals commutes, so no finiteness of the inputs is used.

  The claims: the kernel as printed runs and keeps its arguments (its scores' staging buffer is left unnamed there: at
  bit patterns the product at an element may depend on the whole right operand); the idealized kernel runs, keeps its
  arguments and ends with the edge gates; the reference likewise; the idealization rewrote nothing.
-/
import proofs.«401236_j21947282882710_3_alg».proof.Defs
import proofs.«401236_j21947282882710_3_alg».proof.Proof.Gen.Kernel
import proofs.«401236_j21947282882710_3_alg».proof.Proof.Gen.KernelIdeal
import proofs.«401236_j21947282882710_3_alg».proof.Proof.Gen.ReferenceIdeal
import proofs.«401236_j21947282882710_3_alg».proof.Proof.Gen.Pre_finite_inputs
import proofs.«401236_j21947282882710_3_alg».proof.Proof.KernelFrame
import proofs.«401236_j21947282882710_3_alg».proof.Proof.ScoreResult
import proofs.«401236_j21947282882710_3_alg».proof.Proof.RefValue

noncomputable section

namespace Cert.Proof

open Idealize.ShloMosaic Idealize.SL.Sem

/-- From memories that agree on the four arguments both idealized programs end with the edge gates of those
    arguments: one function of them. -/
theorem algebraic : Cert.algebraic_KernelIdeal_ReferenceIdeal := by
  intro m ρ m' ρ' _ hagree
  refine ⟨fun c => Cert.EdgeGate.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.ScoreResult.run_result m ρ, ?_⟩
  refine (θ_run Cert.ReferenceIdeal.defs _ _).mono (fun _ h c => ⟨(h c).1.trans ?_, (h c).2⟩)
    (Cert.RefValue.run_result m' ρ')
  rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    Cert.KernelFrame.frame, Cert.ScoreResult.frame, Cert.RefValue.frame, trivial, algebraic⟩

end Cert.Proof

end
